-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S2x6400000 : Shape := ⟨2, ![2, 6400000]⟩
abbrev S_ : Shape := ⟨0, ![]⟩

class Facts : Prop where

variable [Facts]

def fn {F : FTy → Type} [FloatOps F] (main_arg0 : IVec S2x6400000 32) : IVec S_ 1 :=
  let main_c : IVec S_ 1 := constantI S_ 1 1#1
  main_c
-- ==== Kernel.lean ====
abbrev S2x6400000 : Shape := ⟨2, ![2, 6400000]⟩
abbrev S1x6400000 : Shape := ⟨2, ![1, 6400000]⟩
abbrev S6400000 : Shape := ⟨1, ![6400000]⟩
abbrev S_ : Shape := ⟨0, ![]⟩
abbrev S100000 : Shape := ⟨1, ![100000]⟩
abbrev S6400000x1 : Shape := ⟨2, ![6400000, 1]⟩
abbrev S100352 : Shape := ⟨1, ![100352]⟩
abbrev S784x128 : Shape := ⟨2, ![784, 128]⟩
abbrev S50000x128 : Shape := ⟨2, ![50000, 128]⟩
abbrev S5000x128 : Shape := ⟨2, ![5000, 128]⟩

abbrev nBuf : Space → Nat
  | .hbm => 47
  | .vmem => 8
  | .smem => 0
  | _ => 0

abbrev bufTy : (tb : Table) → Fin (tcTables nBuf tb) → BufTy
  | .hbm, ⟨0, _⟩ => ⟨S2x6400000, .i32⟩
  | .hbm, ⟨1, _⟩ => ⟨S1x6400000, .i32⟩
  | .hbm, ⟨2, _⟩ => ⟨S6400000, .i32⟩
  | .hbm, ⟨3, _⟩ => ⟨S1x6400000, .i32⟩
  | .hbm, ⟨4, _⟩ => ⟨S6400000, .i32⟩
  | .hbm, ⟨5, _⟩ => ⟨S_, .f32⟩
  | .hbm, ⟨6, _⟩ => ⟨S100000, .f32⟩
  | .hbm, ⟨7, _⟩ => ⟨S_, .i32⟩
  | .hbm, ⟨8, _⟩ => ⟨S6400000, .i32⟩
  | .hbm, ⟨9, _⟩ => ⟨S6400000, .i1⟩
  | .hbm, ⟨10, _⟩ => ⟨S_, .i32⟩
  | .hbm, ⟨11, _⟩ => ⟨S6400000, .i32⟩
  | .hbm, ⟨12, _⟩ => ⟨S6400000, .i32⟩
  | .hbm, ⟨13, _⟩ => ⟨S6400000, .i32⟩
  | .hbm, ⟨14, _⟩ => ⟨S6400000x1, .i32⟩
  | .hbm, ⟨15, _⟩ => ⟨S_, .f32⟩
  | .hbm, ⟨16, _⟩ => ⟨S6400000, .f32⟩
  | .hbm, ⟨17, _⟩ => ⟨S100000, .f32⟩
  | .hbm, ⟨18, _⟩ => ⟨S_, .i32⟩
  | .hbm, ⟨19, _⟩ => ⟨S_, .f32⟩
  | .hbm, ⟨20, _⟩ => ⟨S100352, .f32⟩
  | .hbm, ⟨21, _⟩ => ⟨S784x128, .f32⟩
  | .hbm, ⟨22, _⟩ => ⟨S784x128, .f32⟩
  | .hbm, ⟨23, _⟩ => ⟨S100352, .f32⟩
  | .hbm, ⟨24, _⟩ => ⟨S100000, .f32⟩
  | .hbm, ⟨25, _⟩ => ⟨S_, .i32⟩
  | .hbm, ⟨26, _⟩ => ⟨S6400000, .i32⟩
  | .hbm, ⟨27, _⟩ => ⟨S6400000, .i1⟩
  | .hbm, ⟨28, _⟩ => ⟨S_, .i32⟩
  | .hbm, ⟨29, _⟩ => ⟨S6400000, .i32⟩
  | .hbm, ⟨30, _⟩ => ⟨S6400000, .i32⟩
  | .hbm, ⟨31, _⟩ => ⟨S6400000, .i32⟩
  | .hbm, ⟨32, _⟩ => ⟨S6400000x1, .i32⟩
  | .hbm, ⟨33, _⟩ => ⟨S6400000, .f32⟩
  | .hbm, ⟨34, _⟩ => ⟨S_, .i32⟩
  | .hbm, ⟨35, _⟩ => ⟨S6400000, .i32⟩
  | .hbm, ⟨36, _⟩ => ⟨S6400000, .i1⟩
  | .hbm, ⟨37, _⟩ => ⟨S_, .i32⟩
  | .hbm, ⟨38, _⟩ => ⟨S6400000, .i32⟩
  | .hbm, ⟨39, _⟩ => ⟨S6400000, .i32⟩
  | .hbm, ⟨40, _⟩ => ⟨S6400000, .i32⟩
  | .hbm, ⟨41, _⟩ => ⟨S6400000x1, .i32⟩
  | .hbm, ⟨42, _⟩ => ⟨S6400000, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S6400000, .f32⟩
  | .local _ .vmem, ⟨0, _⟩ => ⟨S784x128, .f32⟩
  | .local _ .vmem, ⟨1, _⟩ => ⟨S784x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | _, _ => ⟨S2x6400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_5 : Ref sig .tc := ⟨.hbm, 34, rfl⟩
abbrev main_v25 : Ref sig .tc := ⟨.hbm, 35, rfl⟩
abbrev main_v26 : Ref sig .tc := ⟨.hbm, 36, rfl⟩
abbrev main_c_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S784x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S784x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S100000 : S_.BroadcastsInDim S100000 (![] : Fin 0 → Fin S100000.rank)
  bcast_S_S6400000 : S_.BroadcastsInDim S6400000 (![] : Fin 0 → Fin S6400000.rank)
  bcast_S6400000_S6400000x1_0 : S6400000.BroadcastsInDim S6400000x1 (![0] : Fin 1 → Fin S6400000x1.rank)
  pads_S100000_S100352_03520 : S100000.Pads (![0] : Fin 1 → Nat) ![352] ![0] S100352
  h_S_ : 0 < S_.numel
  shapeCasts_S100352_S784x128 : S100352.ShapeCasts S784x128
  inb_S784x128_S784x128_0_0 : ∀ a, (![0, 0] : Fin 2 → Nat) a + S784x128.size a ≤ S784x128.size a
  h_S784x128 : 0 < S784x128.numel
  shapeCasts_S784x128_S784x128 : S784x128.ShapeCasts S784x128
  shapeCasts_S784x128_S100352 : S784x128.ShapeCasts S100352
  slices_S100352_S100000_0 : S100352.Slices ![0] S100000
  shapeCasts_S6400000_S50000x128 : S6400000.ShapeCasts S50000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S50000x128_S6400000 : S50000x128.ShapeCasts S6400000
  scatter_S100000_S6400000x1_S6400000_n_0_0_1_wf : ScatterDims.WF S100000 S6400000x1 S6400000 [] [0] [0] 1
  gather_S100000_S6400000x1_S6400000_n_0_n_n_0_1_1_wf : GatherDims.WF S100000 S6400000x1 S6400000 [] [0] [] [0] [] 1 ![1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S784x128.size a ≤ S784x128.size a
  hwx0_0 : ∀ i : grid0.Coords, EltTy.bits .f32 = 32 ∨ (Rect.block (s := S784x128) S784x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x128.size a ≤ S784x128.size a
  hwx0_1 : ∀ i : grid0.Coords, EltTy.bits .f32 = 32 ∨ (Rect.block (s := S784x128) S784x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf

abbrev win0_0 : Pipeline.Window sig grid0 :=
  Pipeline.Window.ofSpec (Memref.whole main_v14) S784x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v15) S784x128.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x6400000 : Shape := ⟨2, ![2, 6400000]⟩
abbrev S1x6400000 : Shape := ⟨2, ![1, 6400000]⟩
abbrev S6400000 : Shape := ⟨1, ![6400000]⟩
abbrev S_ : Shape := ⟨0, ![]⟩
abbrev S100000 : Shape := ⟨1, ![100000]⟩
abbrev S6400000x1 : Shape := ⟨2, ![6400000, 1]⟩

abbrev nBuf : Space → Nat
  | .hbm => 49
  | .vmem => 0
  | .smem => 0
  | _ => 0

abbrev bufTy : (tb : Table) → Fin (tcTables nBuf tb) → BufTy
  | .hbm, ⟨0, _⟩ => ⟨S2x6400000, .i32⟩
  | .hbm, ⟨1, _⟩ => ⟨S1x6400000, .i32⟩
  | .hbm, ⟨2, _⟩ => ⟨S6400000, .i32⟩
  | .hbm, ⟨3, _⟩ => ⟨S1x6400000, .i32⟩
  | .hbm, ⟨4, _⟩ => ⟨S6400000, .i32⟩
  | .hbm, ⟨5, _⟩ => ⟨S_, .f32⟩
  | .hbm, ⟨6, _⟩ => ⟨S100000, .f32⟩
  | .hbm, ⟨7, _⟩ => ⟨S_, .i32⟩
  | .hbm, ⟨8, _⟩ => ⟨S6400000, .i32⟩
  | .hbm, ⟨9, _⟩ => ⟨S6400000, .i1⟩
  | .hbm, ⟨10, _⟩ => ⟨S_, .i32⟩
  | .hbm, ⟨11, _⟩ => ⟨S6400000, .i32⟩
  | .hbm, ⟨12, _⟩ => ⟨S6400000, .i32⟩
  | .hbm, ⟨13, _⟩ => ⟨S6400000, .i32⟩
  | .hbm, ⟨14, _⟩ => ⟨S6400000x1, .i32⟩
  | .hbm, ⟨15, _⟩ => ⟨S_, .f32⟩
  | .hbm, ⟨16, _⟩ => ⟨S6400000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S6400000, .i32⟩
  | .hbm, ⟨32, _⟩ => ⟨S6400000, .i1⟩
  | .hbm, ⟨33, _⟩ => ⟨S_, .i32⟩
  | .hbm, ⟨34, _⟩ => ⟨S6400000, .i32⟩
  | .hbm, ⟨35, _⟩ => ⟨S6400000, .i32⟩
  | .hbm, ⟨36, _⟩ => ⟨S6400000, .i32⟩
  | .hbm, ⟨37, _⟩ => ⟨S6400000x1, .i32⟩
  | .hbm, ⟨38, _⟩ => ⟨S6400000, .f32⟩
  | .hbm, ⟨39, _⟩ => ⟨S_, .i32⟩
  | .hbm, ⟨40, _⟩ => ⟨S6400000, .i32⟩
  | .hbm, ⟨41, _⟩ => ⟨S6400000, .i1⟩
  | .hbm, ⟨42, _⟩ => ⟨S_, .i32⟩
  | .hbm, ⟨43, _⟩ => ⟨S6400000, .i32⟩
  | .hbm, ⟨44, _⟩ => ⟨S6400000, .i32⟩
  | .hbm, ⟨45, _⟩ => ⟨S6400000, .i32⟩
  | .hbm, ⟨46, _⟩ => ⟨S6400000x1, .i32⟩
  | .hbm, ⟨47, _⟩ => ⟨S6400000, .f32⟩
  | .hbm, ⟨48, _⟩ => ⟨S6400000, .f32⟩
  | _, _ => ⟨S2x6400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_c_6 : Ref sig .tc := ⟨.hbm, 30, rfl⟩
abbrev main_v21 : Ref sig .tc := ⟨.hbm, 31, rfl⟩
abbrev main_v22 : Ref sig .tc := ⟨.hbm, 32, rfl⟩
abbrev main_c_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_8 : Ref sig .tc := ⟨.hbm, 39, rfl⟩
abbrev main_v28 : Ref sig .tc := ⟨.hbm, 40, rfl⟩
abbrev main_v29 : Ref sig .tc := ⟨.hbm, 41, rfl⟩
abbrev main_c_9 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S100000 : S_.BroadcastsInDim S100000 (![] : Fin 0 → Fin S100000.rank)
  bcast_S_S6400000 : S_.BroadcastsInDim S6400000 (![] : Fin 0 → Fin S6400000.rank)
  bcast_S6400000_S6400000x1_0 : S6400000.BroadcastsInDim S6400000x1 (![0] : Fin 1 → Fin S6400000x1.rank)
  scatter_S100000_S6400000x1_S6400000_n_0_0_1_wf : ScatterDims.WF S100000 S6400000x1 S6400000 [] [0] [0] 1
  gather_S100000_S6400000x1_S6400000_n_0_n_n_0_1_1_wf : GatherDims.WF S100000 S6400000x1 S6400000 [] [0] [] [0] [] 1 ![1]

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf

class Facts : Prop extends Facts₀ where

variable [Facts]
-- ==== Proof.RegionValues.lean ====
/-
  What each of the two kernel regions leaves in its output array, as one function of the arrays the region finds.
  Region 0 runs once on the whole 784 × 128 array, so its output array is the body's pointwise expression of its input array.
  Region 1 runs on ten row blocks of 5000 × 128; point t reads rows 5000·t … 5000·t + 4999 of both inputs and writes the same
  rows of the output, so the blocks cover the 50000 × 128 output and it ends as the pointwise product of the two inputs.
-/
import proofs.«109612_j51994874085826_1_alg».proof.Proof.Gen.KernelIdeal.Frame
import Idealize.ShloMosaic.Lib.Pipeline.Value

set_option maxRecDepth 16384

noncomputable section

namespace Cert.KernelIdeal.Regions

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-! ## Region 0: one point, the whole array -/

/-- The block indices of both windows at the one point are (0, 0). -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- Reading the one block of window w is reading the array. -/
theorem read_blk0_0 (t : Fin cfg0.N) (f : S784x128.Idx → Elt F .f32) :
    ((cfg0.win 0).blk t).view.read (Elt F) f = f := by
  obtain ⟨e0, e1, -, -⟩ := idx_facts0 t
  funext j
  show f (((cfg0.win 0).blk t).view.emb j) = f j
  refine congrArg f ?_
  funext a; apply Fin.ext
  match a with
  | ⟨0, _⟩ => show win0_0.index t (0 : Fin 2) * 784 + 1 * (j 0).val = (j 0).val; omega
  | ⟨1, _⟩ => show win0_0.index t (1 : Fin 2) * 128 + 1 * (j 1).val = (j 1).val; omega

theorem read_blk0_1 (t : Fin cfg0.N) (f : S784x128.Idx → Elt F .f32) :
    ((cfg0.win 1).blk t).view.read (Elt F) f = f := by
  obtain ⟨-, -, e0, e1⟩ := idx_facts0 t
  funext j
  show f (((cfg0.win 1).blk t).view.emb j) = f j
  refine congrArg f ?_
  funext a; apply Fin.ext
  match a with
  | ⟨0, _⟩ => show win0_1.index t (0 : Fin 2) * 784 + 1 * (j 0).val = (j 0).val; omega
  | ⟨1, _⟩ => show win0_1.index t (1 : Fin 2) * 128 + 1 * (j 1).val = (j 1).val; omega

/-- What the point writes back is the block of the body's expression of the input array. -/
theorem flushed0 (c : Dev nD) (t : Fin cfg0.N) :
    (dat0 V c).flushed 1 t = ((cfg0.win 1).blk t).view.read (Elt F) (k0_pay1 (V c main_v14)) := by
  show (cfg0.win 1).cut (grid0.coords t) ((dat0 V c).after 1 t) = _
  rw [after0_1]
  unfold out0_1
  rw [View.canon_unit_zero zero_offsets]
  simp only [View.ld_unit_zero (S := S784x128) zero_offsets]
  rw [read_blk0_1]
  show k0_pay1 (iblk0 V c 0 t) = k0_pay1 (V c main_v14)
  refine congrArg k0_pay1 ?_
  exact read_blk0_0 t (V c main_v14)

theorem mem_blk0 (t : Fin cfg0.N) (i : S784x128.Idx) :
    i ∈ ((cfg0.win 1).blk t).view.set ↔ ∀ a : Fin 2, win0_1.index t a * S784x128.size a ≤ (i a).val ∧ (i a).val < win0_1.index t a * S784x128.size a + S784x128.size a := by
  show i ∈ ((View.whole main_v15).slice (win0_1.rect t)).set ↔ _
  rw [View.set_slice_whole, Rect.mem_set_unit]
  exact Iff.rfl

/-- Region 0's output array after the region. -/
theorem final0 (c : Dev nD) : (dat0 V c).arrAt 1 cfg0.N = k0_pay1 (V c main_v14) := by
  refine (dat0 V c).arrAt_eq_of_cover 1 (k0_pay1 (V c main_v14)) (fun t _ => flushed0 V c t) fun i => ?_
  refine ⟨t0_0, flush0_1 t0_0, ?_⟩
  rw [mem_blk0]
  obtain ⟨-, -, e0, e1⟩ := idx_facts0 t0_0
  intro a
  match a with
  | ⟨0, _⟩ =>
    show win0_1.index t0_0 (0 : Fin 2) * 784 ≤ (i 0).val ∧ (i 0).val < win0_1.index t0_0 (0 : Fin 2) * 784 + 784
    have : (i 0).val < 784 := (i 0).isLt
    omega
  | ⟨1, _⟩ =>
    show win0_1.index t0_0 (1 : Fin 2) * 128 ≤ (i 1).val ∧ (i 1).val < win0_1.index t0_0 (1 : Fin 2) * 128 + 128
    have : (i 1).val < 128 := (i 1).isLt
    omega

/-! ## Region 1: ten row blocks -/

/-- The product of two arrays, entry by entry. -/
abbrev prod (a b : S50000x128.Idx → Elt F .f32) : S50000x128.Idx → Elt F .f32 := fun i => FloatOps.mulf (a i) (b i)

/-- The body's expression is the product of its two loaded blocks (its two shape casts are to the same shape). -/
theorem pay1_eq (x0 x1 : Vec F S5000x128 .f32) : k1_pay1 x0 x1 = mulf x0 x1 := by
  unfold k1_pay1
  simp only [shapeCast_self]

/-- At point t all three windows are on block row t, block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the product of the two input arrays. -/
theorem flushed1 (c : Dev nD) (t : Fin cfg1.N) :
    (dat1 V c).flushed 2 t = ((cfg1.win 2).blk t).view.read (Elt F) (prod (V c main_v32) (V c main_v33)) := by
  show (cfg1.win 2).cut (grid1.coords t) ((dat1 V c).after 2 t) = _
  rw [after1_2]
  unfold out1_2
  rw [View.canon_unit_zero zero_offsets]
  simp only [View.ld_unit_zero (S := S5000x128) zero_offsets]
  rw [pay1_eq]
  obtain ⟨e0, e1, e2, e3, e4, e5⟩ := idx_facts1 t
  funext j
  show FloatOps.mulf (V c main_v32 (((cfg1.win 0).blk t).view.emb j)) (V c main_v33 (((cfg1.win 1).blk t).view.emb j))
    = FloatOps.mulf (V c main_v32 (((cfg1.win 2).blk t).view.emb j)) (V c main_v33 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 128 + 1 * (j 1).val = win1_2.index t (1 : Fin 2) * 128 + 1 * (j 1).val; omega
  rw [h0, h1]

theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v34).slice (win1_2.rect t)).set ↔ _
  rw [View.set_slice_whole, Rect.mem_set_unit]
  exact Iff.rfl

/-- Region 1's output array after the region: row r lies in block r / 5000. -/
theorem final1 (c : Dev nD) : (dat1 V c).arrAt 2 cfg1.N = prod (V c main_v32) (V c main_v33) := by
  refine (dat1 V c).arrAt_eq_of_cover 2 (prod (V c main_v32) (V c main_v33)) (fun t _ => flushed1 V c t) fun i => ?_
  have hi0 : (i 0).val < 50000 := (i 0).isLt
  have hi1 : (i 1).val < 128 := (i 1).isLt
  have hN : cfg1.N = 10 := N_1
  let t : Fin cfg1.N := ⟨(i 0).val / 5000, by rw [hN]; omega⟩
  refine ⟨t, flush1_2 t, ?_⟩
  rw [mem_blk1]
  obtain ⟨-, -, -, -, e4, e5⟩ := idx_facts1 t
  have ht : t.val = (i 0).val / 5000 := rfl
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

end Cert.KernelIdeal.Regions

end
-- ==== Proof.Terms.lean ====
/-
  The pieces of the computation that the kernel's program and the reference spell with the same host operations, named once so
  that neither proof has to open them. From the edge list x (two rows of 6,400,000 node numbers):
  `row0 x` and `row1 x` are its two rows; `starts r` turns a row into a column of gather / scatter start indices, a negative
  number n read as n + 100000; `deg x` is the degree histogram, a scatter-add of ones at `starts (row1 x)` into 100000 zeros;
  `norm tbl x` gathers a table of 100000 entries at both rows' start indices and multiplies the two gathered arrays entry by
  entry. The two programs differ only in the table they hand to `norm`.
-/
import proofs.«109612_j51994874085826_1_alg».proof.Proof.Gen.KernelIdeal

noncomputable section

namespace Cert.KernelIdeal.Terms

open Idealize.ShloMosaic Idealize.ShloMosaic.TcCoe Idealize.SL.Sem
open Cert.KernelIdeal Cert.KernelIdeal.Facts₀ Cert.KernelIdeal.Facts

variable {F : FTy → Type} [FloatOps F]

/-- Row 0 of the edge list: the source nodes. -/
def row0 (x : (⟨S2x6400000, .i32⟩ : BufTy).Contents (Elt F)) : (⟨S6400000, .i32⟩ : BufTy).Contents (Elt F) :=
  shapeCast _ (extractStridedSlice S1x6400000 ![0, 0] x slices_S2x6400000_S1x6400000_0_0) shapeCasts_S1x6400000_S6400000

/-- Row 1 of the edge list: the target nodes, whose multiplicities are the degrees. -/
def row1 (x : (⟨S2x6400000, .i32⟩ : BufTy).Contents (Elt F)) : (⟨S6400000, .i32⟩ : BufTy).Contents (Elt F) :=
  shapeCast _ (extractStridedSlice S1x6400000 ![1, 0] x slices_S2x6400000_S1x6400000_1_0) shapeCasts_S1x6400000_S6400000

/-- A row of node numbers as a column of start indices: n < 0 becomes n + 100000. -/
def starts (r : (⟨S6400000, .i32⟩ : BufTy).Contents (Elt F)) : (⟨S6400000x1, .i32⟩ : BufTy).Contents (Elt F) :=
  broadcastInDim S6400000x1 ![0] bcast_S6400000_S6400000x1_0
    (select (cmpi .slt r (broadcastInDim S6400000 ![] bcast_S_S6400000 (constantI S_ 32 0#32)))
      (addi r (broadcastInDim S6400000 ![] bcast_S_S6400000 (constantI S_ 32 100000#32))) r)

/-- The degree histogram: ones scatter-added at the target nodes into zeros. -/
def deg (x : (⟨S2x6400000, .i32⟩ : BufTy).Contents (Elt F)) : (⟨S100000, .f32⟩ : BufTy).Contents (Elt F) :=
  Host.scatterAdd scatter_S100000_S6400000x1_S6400000_n_0_0_1
    (broadcastInDim S100000 ![] bcast_S_S100000 (constant S_ .f32 0x00000000#32))
    (starts (row1 x))
    (broadcastInDim S6400000 ![] bcast_S_S6400000 (constant S_ .f32 0x3F800000#32))

/-- The result from a table: the table gathered at the sources times the table gathered at the targets. -/
def norm (tbl : (⟨S100000, .f32⟩ : BufTy).Contents (Elt F)) (x : (⟨S2x6400000, .i32⟩ : BufTy).Contents (Elt F)) :
    (⟨S6400000, .f32⟩ : BufTy).Contents (Elt F) :=
  mulf (Host.gather gather_S100000_S6400000x1_S6400000_n_0_n_n_0_1_1 tbl (starts (row0 x)))
    (Host.gather gather_S100000_S6400000x1_S6400000_n_0_n_n_0_1_1 tbl (starts (row1 x)))

end Cert.KernelIdeal.Terms

end
-- ==== Proof.HostValue.lean ====
/-
  The kernel's program read from its last buffer back to the launch memory. Its @main is five stretches of host operations around
  two kernel regions; each stretch is read here against ANY contents of the buffers it starts from, and the chain then says what
  the result buffer holds at the end: the product of two gathers (`Terms.norm`) of the kernel's table. That table is the degree
  histogram padded with 352 zeros to 100352 entries, laid out as 784 × 128, put through region 0's pointwise expression, flattened
  again and cut back to its first 100000 entries. Region 1 multiplies the two gathered arrays laid out as 50000 × 128, and the
  result is flattened: laying out, multiplying entry by entry and flattening again is multiplying entry by entry.
-/
import proofs.«109612_j51994874085826_1_alg».proof.Proof.RegionValues
import proofs.«109612_j51994874085826_1_alg».proof.Proof.Terms
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen Cert.KernelIdeal.Terms

variable {F : FTy → Type} [FloatOps F]

/-- The kernel's table of 100000 entries from the edge list. -/
def tblK (x : (⟨S2x6400000, .i32⟩ : BufTy).Contents (Elt F)) : (⟨S100000, .f32⟩ : BufTy).Contents (Elt F) :=
  extractStridedSlice S100000 ![0]
    (shapeCast S100352
      (k0_pay1 (shapeCast S784x128
        (pad S100352 ![0] ![352] ![0] (deg x) (sitofp .f32 (constantI S_ 32 0#32)) pads_S100000_S100352_03520 h_S_)
        shapeCasts_S100352_S784x128))
      shapeCasts_S784x128_S100352)
    slices_S100352_S100000_0

/-! ## Each stretch, from any contents `W` -/

section Stretches
variable (W : Valuation τ sig (Elt F))

theorem after2_v35 : StableHlo.after hostOps2 W (Proc.devRef .tc main_v35)
    = shapeCast S6400000 (W (Proc.devRef .tc main_v34)) shapeCasts_S50000x128_S6400000 := by
  after_results; rfl

theorem after1_v32 : StableHlo.after hostOps1 W (Proc.devRef .tc main_v32)
    = shapeCast S50000x128 (Host.gather gather_S100000_S6400000x1_S6400000_n_0_n_n_0_1_1
        (extractStridedSlice S100000 ![0] (shapeCast S100352 (W (Proc.devRef .tc main_v15)) shapeCasts_S784x128_S100352) slices_S100352_S100000_0)
        (starts (W (Proc.devRef .tc main_v1)))) shapeCasts_S6400000_S50000x128 := by
  after_results_simp <;> rfl

theorem after1_v33 : StableHlo.after hostOps1 W (Proc.devRef .tc main_v33)
    = shapeCast S50000x128 (Host.gather gather_S100000_S6400000x1_S6400000_n_0_n_n_0_1_1
        (extractStridedSlice S100000 ![0] (shapeCast S100352 (W (Proc.devRef .tc main_v15)) shapeCasts_S784x128_S100352) slices_S100352_S100000_0)
        (starts (W (Proc.devRef .tc main_v3)))) shapeCasts_S6400000_S50000x128 := by
  after_results_simp <;> rfl

theorem after02_v14 : StableHlo.after hostOps0_2 W (Proc.devRef .tc main_v14)
    = shapeCast S784x128 (W (Proc.devRef .tc main_v13)) shapeCasts_S100352_S784x128 := by
  after_results; rfl

theorem after02_v1 : StableHlo.after hostOps0_2 W (Proc.devRef .tc main_v1) = W (Proc.devRef .tc main_v1) := by
  after_results
theorem after02_v3 : StableHlo.after hostOps0_2 W (Proc.devRef .tc main_v3) = W (Proc.devRef .tc main_v3) := by
  after_results

theorem after01_v13 : StableHlo.after hostOps0_1 W (Proc.devRef .tc main_v13)
    = pad S100352 ![0] ![352] ![0] (W (Proc.devRef .tc main_v12)) (sitofp .f32 (W (Proc.devRef .tc main_c_2))) pads_S100000_S100352_03520 h_S_ := by
  after_results; rfl

theorem after01_v1 : StableHlo.after hostOps0_1 W (Proc.devRef .tc main_v1) = W (Proc.devRef .tc main_v1) := by
  after_results
theorem after01_v3 : StableHlo.after hostOps0_1 W (Proc.devRef .tc main_v3) = W (Proc.devRef .tc main_v3) := by
  after_results

theorem after0_v12 : StableHlo.after hostOps0 W (Proc.devRef .tc main_v12) = deg (W (Proc.devRef .tc main_arg0)) := by
  after_results_simp <;> rfl
theorem after0_c2 : StableHlo.after hostOps0 W (Proc.devRef .tc main_c_2) = constantI S_ 32 0#32 := by
  after_results_simp <;> rfl
theorem after0_v1 : StableHlo.after hostOps0 W (Proc.devRef .tc main_v1) = row0 (W (Proc.devRef .tc main_arg0)) := by
  after_results_simp <;> rfl
theorem after0_v3 : StableHlo.after hostOps0 W (Proc.devRef .tc main_v3) = row1 (W (Proc.devRef .tc main_arg0)) := by
  after_results_simp <;> rfl

end Stretches

/-- Laying two flat arrays out as 50000 × 128, multiplying entry by entry and flattening the product is the product of the flat
    arrays: the two layouts are inverse bijections of the indices. -/
theorem flatten_prod (a b : S6400000.Idx → Elt F .f32) :
    shapeCast S6400000 (Regions.prod (shapeCast S50000x128 a shapeCasts_S6400000_S50000x128)
      (shapeCast S50000x128 b shapeCasts_S6400000_S50000x128)) shapeCasts_S50000x128_S6400000 = mulf a b := by
  funext j
  have ha := congrFun (shapeCast_shapeCast a shapeCasts_S6400000_S50000x128 shapeCasts_S50000x128_S6400000) j
  have hb := congrFun (shapeCast_shapeCast b shapeCasts_S6400000_S50000x128 shapeCasts_S50000x128_S6400000) j
  exact congrArg₂ FloatOps.mulf ha hb

/-! ## The chain -/

section Chain
variable (m : (ℓ : Loc nD τ sig) → Buf (Elt F) ℓ) (ρ : Dev nD → PrngReg)

/-- The edge list as launched. -/
abbrev edges (c : Dev nD) : (⟨S2x6400000, .i32⟩ : BufTy).Contents (Elt F) := m ((c : Thread nD τ).loc main_arg0)

theorem W1_v1 (c : Dev nD) : W1 m ρ c (Proc.devRef .tc main_v1) = row0 (edges m c) := after0_v1 (W0 m ρ c)
theorem W1_v3 (c : Dev nD) : W1 m ρ c (Proc.devRef .tc main_v3) = row1 (edges m c) := after0_v3 (W0 m ρ c)
theorem W1_v12 (c : Dev nD) : W1 m ρ c (Proc.devRef .tc main_v12) = deg (edges m c) := after0_v12 (W0 m ρ c)
theorem W1_c2 (c : Dev nD) : W1 m ρ c (Proc.devRef .tc main_c_2) = constantI S_ 32 0#32 := after0_c2 (W0 m ρ c)

theorem W3_v1 (c : Dev nD) : W3 m ρ c (Proc.devRef .tc main_v1) = row0 (edges m c) :=
  (after02_v1 (W2 m ρ c)).trans ((after01_v1 (W1 m ρ c)).trans (W1_v1 m ρ c))
theorem W3_v3 (c : Dev nD) : W3 m ρ c (Proc.devRef .tc main_v3) = row1 (edges m c) :=
  (after02_v3 (W2 m ρ c)).trans ((after01_v3 (W1 m ρ c)).trans (W1_v3 m ρ c))

/-- Region 0's input array: the padded histogram laid out as 784 × 128. -/
theorem W3_v14 (c : Dev nD) : W3 m ρ c (Proc.devRef .tc main_v14)
    = shapeCast S784x128 (pad S100352 ![0] ![352] ![0] (deg (edges m c)) (sitofp .f32 (constantI S_ 32 0#32)) pads_S100000_S100352_03520 h_S_)
        shapeCasts_S100352_S784x128 := by
  rw [show W3 m ρ c (Proc.devRef .tc main_v14) = _ from after02_v14 (W2 m ρ c),
    show W2 m ρ c (Proc.devRef .tc main_v13) = _ from after01_v13 (W1 m ρ c), W1_v12, W1_c2]

theorem W4_v1 (c : Dev nD) : W4 m ρ c (Proc.devRef .tc main_v1) = row0 (edges m c) :=
  (W4_of_ne m ρ c main_v1 (by decide)).trans (W3_v1 m ρ c)
theorem W4_v3 (c : Dev nD) : W4 m ρ c (Proc.devRef .tc main_v3) = row1 (edges m c) :=
  (W4_of_ne m ρ c main_v3 (by decide)).trans (W3_v3 m ρ c)

/-- Region 0's output array. -/
theorem W4_v15 (c : Dev nD) : W4 m ρ c (Proc.devRef .tc main_v15)
    = k0_pay1 (shapeCast S784x128 (pad S100352 ![0] ![352] ![0] (deg (edges m c)) (sitofp .f32 (constantI S_ 32 0#32)) pads_S100000_S100352_03520 h_S_)
        shapeCasts_S100352_S784x128) := by
  refine ((W4_arr m ρ c 1).trans (Regions.final0 (V3 m ρ) c)).trans ?_
  exact congrArg k0_pay1 (W3_v14 m ρ c)

/-- Region 1's two input arrays: the table gathered at each row, laid out as 50000 × 128. -/
theorem W5_v32 (c : Dev nD) : W5 m ρ c (Proc.devRef .tc main_v32)
    = shapeCast S50000x128 (Host.gather gather_S100000_S6400000x1_S6400000_n_0_n_n_0_1_1 (tblK (edges m c)) (starts (row0 (edges m c))))
        shapeCasts_S6400000_S50000x128 := by
  rw [show W5 m ρ c (Proc.devRef .tc main_v32) = _ from after1_v32 (W4 m ρ c), W4_v15, W4_v1]
  rfl
theorem W5_v33 (c : Dev nD) : W5 m ρ c (Proc.devRef .tc main_v33)
    = shapeCast S50000x128 (Host.gather gather_S100000_S6400000x1_S6400000_n_0_n_n_0_1_1 (tblK (edges m c)) (starts (row1 (edges m c))))
        shapeCasts_S6400000_S50000x128 := by
  rw [show W5 m ρ c (Proc.devRef .tc main_v33) = _ from after1_v33 (W4 m ρ c), W4_v15, W4_v3]
  rfl

/-- Region 1's output array. -/
theorem W6_v34 (c : Dev nD) : W6 m ρ c (Proc.devRef .tc main_v34)
    = Regions.prod (shapeCast S50000x128 (Host.gather gather_S100000_S6400000x1_S6400000_n_0_n_n_0_1_1 (tblK (edges m c)) (starts (row0 (edges m c)))) shapeCasts_S6400000_S50000x128)
        (shapeCast S50000x128 (Host.gather gather_S100000_S6400000x1_S6400000_n_0_n_n_0_1_1 (tblK (edges m c)) (starts (row1 (edges m c)))) shapeCasts_S6400000_S50000x128) := by
  refine ((W6_arr m ρ c 2).trans (Regions.final1 (V5 m ρ) c)).trans ?_
  exact congrArg₂ Regions.prod (W5_v32 m ρ c) (W5_v33 m ρ c)

/-- THE RESULT BUFFER at the end of @main: the product of the kernel's table gathered at the two rows. -/
theorem W7_v35 (c : Dev nD) : W7 m ρ c (Proc.devRef .tc main_v35) = norm (tblK (edges m c)) (edges m c) := by
  rw [show W7 m ρ c (Proc.devRef .tc main_v35) = _ from after2_v35 (W6 m ρ c), W6_v34, flatten_prod]
  rfl

end Chain

end Cert.KernelIdeal.HostValue

end
-- ==== Proof.RefTable.lean ====
/-
  The reference's table of 100000 entries from the edge list: where the degree is positive, the degree plus the small constant
  raised to the power -1/2; zero elsewhere.
-/
import proofs.«109612_j51994874085826_1_alg».proof.Proof.Terms

noncomputable section

namespace Cert.KernelIdeal.Terms

open Idealize.ShloMosaic Idealize.ShloMosaic.TcCoe Idealize.SL.Sem
open Cert.KernelIdeal Cert.KernelIdeal.Facts₀ Cert.KernelIdeal.Facts

variable {F : FTy → Type} [FloatOps F]

def tblR (x : (⟨S2x6400000, .i32⟩ : BufTy).Contents (Elt F)) : (⟨S100000, .f32⟩ : BufTy).Contents (Elt F) :=
  select (cmpf (F := F) .ogt (deg x) (broadcastInDim S100000 ![] bcast_S_S100000 (constant S_ .f32 0x00000000#32)))
    (Host.powf (addf (deg x) (broadcastInDim S100000 ![] bcast_S_S100000 (constant S_ .f32 0x24E69595#32)))
      (broadcastInDim S100000 ![] bcast_S_S100000 (constant S_ .f32 0xBF000000#32)))
    (broadcastInDim S100000 ![] bcast_S_S100000 (constant S_ .f32 0x00000000#32))

end Cert.KernelIdeal.Terms

end
-- ==== Proof.InvSqrtLaw.lean ====
/-
  The one law that joins the two programs. The kernel's table entry is the reciprocal square root of the degree plus a small
  positive constant, the reference's the same sum raised to the power -1/2, and each is replaced by zero where the degree is not
  positive. On the extended reals the two agree wherever the degree is positive: at a positive real r both are (√r)⁻¹
  (x ^ (-y) = (x ^ y)⁻¹ and √x = x ^ (1/2) for x ≥ 0), and at +∞ both are 0. Where the degree is not positive neither value is
  kept, so nothing is asked of a negative base, where a real power and a reciprocal root would differ.
-/
import Idealize.ShloMosaic.PureOps.Ideal

noncomputable section

namespace Cert.InvSqrt

open Idealize.ShloMosaic

/-- The pattern of +0.0 denotes 0. -/
theorem ofBits_zero : Ideal.ofBits .f32 0x00000000#32 = 0 := by
  simp [Ideal.ofBits, Ideal.ieee]

/-- The pattern of -0.5 denotes the real -1/2. -/
theorem ofBits_neg_half : Ideal.ofBits .f32 0xBF000000#32 = ((-(1 / 2) : ℝ) : EReal) := by
  simp [Ideal.ofBits, Ideal.ieee, -EReal.coe_mul]; norm_num

/-- The small constant added to the degree denotes a positive real (its exact value is never needed: the same pattern
    stands on both sides). -/
theorem ofBits_eps : ∃ e : ℝ, 0 < e ∧ Ideal.ofBits .f32 0x24E69595#32 = (e : EReal) := by
  refine ⟨(15111573 : ℝ) * (2 : ℝ) ^ (-(77 : ℤ)), by positivity, ?_⟩
  simp [Ideal.ofBits, Ideal.ieee, -EReal.coe_mul]

/-- At a positive real the reciprocal root is the power -1/2. -/
theorem rsqrt_eq_pow_of_pos (r : ℝ) (hr : 0 < r) :
    Ideal.rsqrt (r : EReal) = Ideal.pow (r : EReal) ((-(1 / 2) : ℝ) : EReal) := by
  rw [Ideal.rsqrt_coe, Ideal.pow_coe_coe, if_neg (not_lt.2 hr.le), if_neg hr.ne']
  refine congrArg _ ?_
  show (Real.sqrt r)⁻¹ = r ^ (-(1 / 2) : ℝ)
  rw [Real.rpow_neg hr.le, Real.sqrt_eq_rpow]

/-- For every extended real d > 0 and positive real e: the reciprocal root of d + e is its power -1/2. -/
theorem rsqrt_add_eq_pow (d : EReal) (hd : 0 < d) (e : ℝ) (he : 0 < e) :
    Ideal.rsqrt (d + (e : EReal)) = Ideal.pow (d + (e : EReal)) ((-(1 / 2) : ℝ) : EReal) := by
  induction d using EReal.rec with
  | bot => exact absurd hd (by simp)
  | top =>
    rw [EReal.top_add_coe, Ideal.rsqrt_top, Ideal.pow_top,
      if_neg (by rw [EReal.coe_pos]; norm_num), if_neg (by rw [EReal.coe_eq_zero]; norm_num)]
  | coe r =>
    rw [← EReal.coe_add]
    exact rsqrt_eq_pow_of_pos _ (by have := EReal.coe_pos.1 hd; linarith)

/-- The two table entries at a degree d: equal at every extended real. -/
theorem entry_eq (d : EReal) :
    Scalar.select (Ideal.cmp .ogt d (Ideal.ofBits .f32 0x00000000#32))
        (Ideal.rsqrt (d + Ideal.ofBits .f32 0x24E69595#32)) (Ideal.ofBits .f32 0x00000000#32)
      = Scalar.select (Ideal.cmp .ogt d (Ideal.ofBits .f32 0x00000000#32))
        (Ideal.pow (d + Ideal.ofBits .f32 0x24E69595#32) (Ideal.ofBits .f32 0xBF000000#32)) (Ideal.ofBits .f32 0x00000000#32) := by
  obtain ⟨e, he, hE⟩ := ofBits_eps
  rw [hE, ofBits_neg_half, ofBits_zero]
  by_cases h : (0 : EReal) < d
  · have hc : Ideal.cmp .ogt d 0 = 1#1 := by simp [Ideal.cmp, h]
    rw [hc]
    show (if (1#1 : BitVec 1) = 1 then _ else _) = (if (1#1 : BitVec 1) = 1 then _ else _)
    rw [if_pos (by decide : (1#1 : BitVec 1) = 1), if_pos (by decide : (1#1 : BitVec 1) = 1)]
    exact rsqrt_add_eq_pow d h e he
  · have hc : Ideal.cmp .ogt d 0 = 0#1 := by simp [Ideal.cmp, h]
    rw [hc]
    show (if (0#1 : BitVec 1) = 1 then _ else _) = (if (0#1 : BitVec 1) = 1 then _ else _)
    rw [if_neg (by decide : ¬ (0#1 : BitVec 1) = 1), if_neg (by decide : ¬ (0#1 : BitVec 1) = 1)]

end Cert.InvSqrt

end
-- ==== Proof.TableEq.lean ====
/-
  The two tables are equal on the extended reals, entry by entry.
  The reference's entry i is a function of the degree at i alone. So is the kernel's: its table is the degree histogram with 352
  zeros appended, laid out as 784 × 128, put through a pointwise expression, flattened and cut back to its first 100000 entries.
  A pointwise expression commutes with a change of layout, laying out and flattening cancel, and entry i < 100000 of the padded
  histogram is entry i of the histogram; the appended zeros are never read. What is left is the law between the two scalar
  expressions: a reciprocal square root against the power -1/2, each kept only where the degree is positive.
-/
import proofs.«109612_j51994874085826_1_alg».proof.Proof.HostValue
import proofs.«109612_j51994874085826_1_alg».proof.Proof.RefTable
import proofs.«109612_j51994874085826_1_alg».proof.Proof.InvSqrtLaw
import Idealize.ShloMosaic.Lib.KernelVsHost

set_option maxRecDepth 16384

noncomputable section

namespace Cert.KernelIdeal.Table

open Idealize.ShloMosaic Idealize.ShloMosaic.TcCoe Idealize.SL.Sem
open Cert.KernelIdeal Cert.KernelIdeal.Gen Cert.KernelIdeal.Terms Cert.KernelIdeal.HostValue

/-- The kernel's table entry from the degree d: (d + ε)^(-1/2) as a reciprocal square root where d > 0, else 0. -/
def entryK (d : EReal) : EReal :=
  Scalar.select (Ideal.cmp .ogt d (Ideal.ofBits .f32 0x00000000#32))
    (Ideal.rsqrt (d + Ideal.ofBits .f32 0x24E69595#32)) (Ideal.ofBits .f32 0x00000000#32)

/-- The reference's table entry from the degree d: (d + ε) to the power -1/2 where d > 0, else 0. -/
def entryR (d : EReal) : EReal :=
  Scalar.select (Ideal.cmp .ogt d (Ideal.ofBits .f32 0x00000000#32))
    (Ideal.pow (d + Ideal.ofBits .f32 0x24E69595#32) (Ideal.ofBits .f32 0xBF000000#32)) (Ideal.ofBits .f32 0x00000000#32)

theorem entry_eq (d : EReal) : entryK d = entryR d := Cert.InvSqrt.entry_eq d

/-- Region 0's expression is `entryK` applied entry by entry. -/
theorem pay0_eq (v : Vec Ideal S784x128 .f32) : k0_pay1 (F := Ideal) v = fun j => entryK (v j) := by
  unfold k0_pay1
  simp only [shapeCast_self]
  rfl

/-- Laying out, applying a function entry by entry and flattening is applying it entry by entry. -/
theorem relayout_entry (P : S100352.Idx → EReal) (k : S100352.Idx) :
    shapeCast S100352 (fun j => entryK (shapeCast S784x128 P shapeCasts_S100352_S784x128 j)) shapeCasts_S784x128_S100352 k
      = entryK (P k) :=
  congrArg entryK (congrFun (shapeCast_shapeCast P shapeCasts_S100352_S784x128 shapeCasts_S784x128_S100352) k)

/-- A scalar constant broadcast over the table, read at an entry. -/
theorem splat_apply (w : BitVec 32) (i : S100000.Idx) :
    broadcastInDim S100000 ![] bcast_S_S100000 (constant (F := Ideal) S_ .f32 w) i = Ideal.ofBits .f32 w := by
  unfold broadcastInDim
  exact ValueIdx.constant_apply (φ := .f32) w _

/-- The host's power, read at an entry. -/
theorem hostPowf_apply (a b : FVec Ideal S100000 .f32) (i : S100000.Idx) : Host.powf a b i = Ideal.pow (a i) (b i) := rfl

theorem tblR_apply (x : (⟨S2x6400000, .i32⟩ : BufTy).Contents (Elt Ideal)) (i : S100000.Idx) :
    tblR (F := Ideal) x i = entryR (deg (F := Ideal) x i) := by
  unfold tblR entryR
  generalize deg (F := Ideal) x = d
  rw [ValueIdx.select_apply, ValueIdx.cmpf_apply, hostPowf_apply, ValueIdx.addf_apply, splat_apply, splat_apply, splat_apply]
  generalize Ideal.ofBits .f32 0x24E69595#32 = e
  generalize Ideal.ofBits .f32 0xBF000000#32 = p
  generalize Ideal.ofBits .f32 0x00000000#32 = z
  rfl

/-- Entry i of the flat 100000 as an entry of the padded 100352. -/
abbrev inPadded (i : S100000.Idx) : S100352.Idx := fun a => match a with
  | ⟨0, _⟩ => ⟨(i 0).val, by have h0 : (i 0).val < 100000 := (i 0).isLt; show (i 0).val < 100352; omega⟩

theorem tblK_apply (x : (⟨S2x6400000, .i32⟩ : BufTy).Contents (Elt Ideal)) (i : S100000.Idx) :
    tblK (F := Ideal) x i = entryK (deg (F := Ideal) x i) := by
  unfold tblK
  rw [pay0_eq]
  rw [extractStridedSlice_apply ![0] _ slices_S100352_S100000_0 i (inPadded i) (fun a => match a with
    | ⟨0, _⟩ => by show (i 0).val = 0 + (i 0).val; omega)]
  refine (relayout_entry _ (inPadded i)).trans (congrArg entryK ?_)
  exact pad_apply_of_inside _ _ _ _ _ _ _ (inPadded i) i (fun a => match a with
    | ⟨0, _⟩ => by show (i 0).val = 0 + (i 0).val * (0 + 1); omega)

/-- THE TABLES AGREE. -/
theorem tbl_eq (x : (⟨S2x6400000, .i32⟩ : BufTy).Contents (Elt Ideal)) : tblK (F := Ideal) x = tblR (F := Ideal) x :=
  funext fun i => (tblK_apply x i).trans ((entry_eq _).trans (tblR_apply x i).symm)

end Cert.KernelIdeal.Table

end
-- ==== Proof.RefValue.lean ====
/-
  The reference's result as the shared product of gathers of ITS table: the composed term its run ends at is, operation for
  operation, `Terms.norm (Terms.tblR x) x` of the edge list x. (The reference's program spells the same shapes and operation records
  in its own namespace; they unfold to the same values.)
-/
import proofs.«109612_j51994874085826_1_alg».proof.Proof.RefRun
import proofs.«109612_j51994874085826_1_alg».proof.Proof.RefTable

set_option maxRecDepth 16384

noncomputable section

namespace Cert.ReferenceIdeal.RefValue

open Idealize.ShloMosaic Idealize.ShloMosaic.TcCoe Idealize.SL.Sem

variable {F : FTy → Type} [FloatOps F]

theorem res_eq (m' : (ℓ : Loc Cert.ReferenceIdeal.nD Cert.ReferenceIdeal.τ Cert.ReferenceIdeal.sig) → Buf (Elt F) ℓ)
    (c : Dev Cert.ReferenceIdeal.nD) :
    Cert.ReferenceIdeal.Value.res_main_v35 m' c
      = Cert.KernelIdeal.Terms.norm
          (Cert.KernelIdeal.Terms.tblR (m' ((c.tc : Thread Cert.ReferenceIdeal.nD Cert.ReferenceIdeal.τ).loc Cert.ReferenceIdeal.main_arg0)))
          (m' ((c.tc : Thread Cert.ReferenceIdeal.nD Cert.ReferenceIdeal.τ).loc Cert.ReferenceIdeal.main_arg0)) := by
  unfold Cert.ReferenceIdeal.Value.res_main_v35
  rfl

end Cert.ReferenceIdeal.RefValue

end
-- ==== Proof.lean ====
/-
  A graph's symmetric normalisation from its edge list: for each edge (s, t) the product of d(s)^(-1/2) and d(t)^(-1/2), d the
  in-degree counted over the targets, with the convention that a node of degree 0 contributes 0. Both programs count the degrees
  by the same scatter-add of ones and read the table of d^(-1/2) by the same two gathers, node numbers below zero wrapped around
  once and out-of-range ones clamped by the gather and dropped by the scatter alike, so nothing is asked of the node numbers.
  They differ in how the table is made and how the product is taken:
    the kernel pads the degrees to 784 × 128, computes where(d > 0, rsqrt(d + ε), 0) there in one kernel region, cuts the
    table back to 100000 entries, and multiplies the two gathered arrays in a second region over ten blocks of 5000 × 128;
    the reference computes where(d > 0, (d + ε)^(-1/2), 0) and multiplies on the host.
  On the extended reals (d + ε)^(-1/2) and the reciprocal square root of d + ε agree wherever d > 0, at +∞ too, and where d ≤ 0
  both keep 0 (Proof/InvSqrtLaw.lean); padding, layout changes and the cut do not touch the first 100000 entries
  (Proof/TableEq.lean); the blocks of the second region cover its output and laying out, multiplying and flattening is
  multiplying (Proof/RegionValues.lean, Proof/HostValue.lean). So both runs end at the same array (`algebraic`).
  The ideal pass rewrote nothing, so `preserves` asks nothing. The three frames are the generated ones; the reference's is its
  run with the result dropped.
-/
import proofs.«109612_j51994874085826_1_alg».proof.Defs
import proofs.«109612_j51994874085826_1_alg».proof.Proof.Gen.Kernel
import proofs.«109612_j51994874085826_1_alg».proof.Proof.Gen.Kernel.Skeleton
import proofs.«109612_j51994874085826_1_alg».proof.Proof.Gen.Kernel.Launch
import proofs.«109612_j51994874085826_1_alg».proof.Proof.Gen.Kernel.Points
import proofs.«109612_j51994874085826_1_alg».proof.Proof.Gen.Kernel.Frame
import proofs.«109612_j51994874085826_1_alg».proof.Proof.Gen.KernelIdeal
import proofs.«109612_j51994874085826_1_alg».proof.Proof.Gen.KernelIdeal.Skeleton
import proofs.«109612_j51994874085826_1_alg».proof.Proof.Gen.KernelIdeal.Launch
import proofs.«109612_j51994874085826_1_alg».proof.Proof.Gen.KernelIdeal.Points
import proofs.«109612_j51994874085826_1_alg».proof.Proof.Gen.KernelIdeal.Frame
import proofs.«109612_j51994874085826_1_alg».proof.Proof.Gen.ReferenceIdeal
import proofs.«109612_j51994874085826_1_alg».proof.Proof.Gen.Pre_any_inputs
import proofs.«109612_j51994874085826_1_alg».proof.Proof.KernelRun
import proofs.«109612_j51994874085826_1_alg».proof.Proof.TableEq
import proofs.«109612_j51994874085826_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the product of the reference's table gathered at the sources and at the targets. -/
theorem algebraic : Cert.algebraic_KernelIdeal_ReferenceIdeal := by
  intro m ρ m' ρ' _ hagree
  refine ⟨fun c => Cert.KernelIdeal.Terms.norm
      (Cert.KernelIdeal.Terms.tblR (m ((c.tc : Thread Cert.KernelIdeal.nD Cert.KernelIdeal.τ).loc Cert.KernelIdeal.main_arg0)))
      (m ((c.tc : Thread Cert.KernelIdeal.nD Cert.KernelIdeal.τ).loc Cert.KernelIdeal.main_arg0)), ?_, ?_⟩
  · refine (θ_run Cert.KernelIdeal.defs _ _).mono (fun r h c => ⟨(h c).1.trans ?_, (h c).2⟩)
      (Cert.KernelIdeal.Gen.run_named (F := Ideal) m ρ)
    refine (Cert.KernelIdeal.HostValue.W7_v35 m ρ c).trans ?_
    exact congrArg (fun t => Cert.KernelIdeal.Terms.norm t _) (Cert.KernelIdeal.Table.tbl_eq _)
  · refine (θ_run Cert.ReferenceIdeal.defs _ _).mono (fun r h c => ⟨(h c).1.trans ?_, (h c).2⟩)
      (Cert.ReferenceIdeal.Value.run (F := Ideal) m' ρ')
    refine (Cert.ReferenceIdeal.RefValue.res_eq m' c).trans ?_
    exact congrArg (fun x => Cert.KernelIdeal.Terms.norm (Cert.KernelIdeal.Terms.tblR x) x) (hagree c)

theorem claim : Cert.Claim := ⟨Cert.Kernel.Gen.facts, Cert.KernelIdeal.Gen.facts, Cert.ReferenceIdeal.Gen.facts, Cert.Pre_any_inputs.Gen.facts,
  frame_kernel, frame_kernelIdeal, frame_referenceIdeal, preserves, algebraic⟩

end Cert.Proof

end
